-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S_ : Shape := ⟨0, ![]⟩
abbrev S8192x4096 : Shape := ⟨2, ![8192, 4096]⟩
abbrev S8192x16384 : Shape := ⟨2, ![8192, 16384]⟩
abbrev S512x4096 : Shape := ⟨2, ![512, 4096]⟩
abbrev S1024x4096 : Shape := ⟨2, ![1024, 4096]⟩
abbrev S512x1024 : Shape := ⟨2, ![512, 1024]⟩
abbrev S4x2048x16384 : Shape := ⟨3, ![4, 2048, 16384]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S4x2048x4096, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S8192x4096, .f32⟩
  | .hbm, ⟨20, _⟩ => ⟨S8192x4096, .bf16⟩
  | .hbm, ⟨21, _⟩ => ⟨S16384x4096, .bf16⟩
  | .hbm, ⟨22, _⟩ => ⟨S8192x16384, .f32⟩
  | .hbm, ⟨23, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  shapeCasts_S4x2048x4096_S8192x4096 : S4x2048x4096.ShapeCasts S8192x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x16384.size a
  hwx0_2 : ∀ i : grid0.Coords, EltTy.bits .f32 = 32 ∨ (Rect.block (s := S8192x16384) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S4x2048x16384 : Shape := ⟨3, ![4, 2048, 16384]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S4x2048x4096, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The function both programs compute, and the two layout facts that join their arrangements of it.

  Activations `a` of shape [4, 2048, 4096] (batch, position, feature) meet weights `w` of shape [16384, 4096]
  (output feature, feature): entry (b, s, o) of the result is the inner product of row (b, s) of `a` with row `o` of
  `w`, `∑_k a[b, s, k] · w[o, k]`. One program takes that product on the three-axis array directly; the other first
  lays the (b, s) rows end to end as 8192 rows, multiplies row by row, and folds the 8192 result rows back into
  (b, s). Row `b · 2048 + s` of the flattened array IS row (b, s) — the two have the same row-major position — so the
  two arrangements agree entry by entry, each as the SAME sum over `k` in the same order; no law of arithmetic on the
  extended reals is used, only the identity of the indices. A narrowing of the float format between the two is the
  identity on the exact values.

  The weights themselves are a fixed function of the weight argument (its ternary quantization by the mean absolute
  value), the same expression in both programs; it is named here once and never opened.
-/
import Idealize.ShloMosaic.PureOps
import Idealize.ShloMosaic.PureOps.Ideal.Laws
import Idealize.ShloMosaic.Lib.ValueIdx
import Idealize.ShloMosaic.Lib.Pipeline.Value

noncomputable section

namespace Cert.SignTernary

open Idealize.ShloMosaic Idealize.ShloMosaic.ValueIdx
open scoped BigOperators

/-- Activations: batch × position × feature. -/
abbrev Acts : Shape := ⟨3, ![4, 2048, 4096]⟩
/-- Weights: output feature × feature. -/
abbrev Wts : Shape := ⟨2, ![16384, 4096]⟩
/-- The result: batch × position × output feature. -/
abbrev Outs : Shape := ⟨3, ![4, 2048, 16384]⟩
/-- The activations with (batch, position) laid end to end. -/
abbrev ActRows : Shape := ⟨2, ![8192, 4096]⟩
/-- The result with (batch, position) laid end to end. -/
abbrev OutRows : Shape := ⟨2, ![8192, 16384]⟩
/-- A single number. -/
abbrev One : Shape := ⟨0, ![]⟩

/-- The ternary weights: with `γ = (∑ |w|) / 2^26 + ε` the mean absolute weight plus a small constant, each weight
    becomes `sign (w / γ) · min (round |w / γ|) 1`. The three hypotheses are the shape relations the reduction and the
    two broadcasts of a single number ask for. -/
def ternary (hr : Wts.ReducesTo [0, 1] One) (hp : 0 < One.numel)
    (hb : One.BroadcastsInDim Wts (![] : Fin 0 → Fin Wts.rank)) (w : FVec Ideal Wts .f32) : FVec Ideal Wts .f32 :=
  mulf
    (Host.sign (Host.divf w (broadcastInDim Wts ![] hb (addf (Host.divf (Host.reduceAdd (Host.absf w) (constant (F := Ideal) One .f32 0x00000000#32) hr hp) (constant (F := Ideal) One .f32 0x4C800000#32)) (constant (F := Ideal) One .f32 0x358637BD#32)))))
    (minimumf
      (Host.roundeven (Host.absf (Host.divf w (broadcastInDim Wts ![] hb (addf (Host.divf (Host.reduceAdd (Host.absf w) (constant (F := Ideal) One .f32 0x00000000#32) hr hp) (constant (F := Ideal) One .f32 0x4C800000#32)) (constant (F := Ideal) One .f32 0x358637BD#32))))))
      (broadcastInDim Wts ![] hb (constant (F := Ideal) One .f32 0x3F800000#32)))

/-- THE RESULT: entry (b, s, o) is the inner product of activation row (b, s) with weight row `o`. -/
def rowsDot (a : FVec Ideal Acts .f32) (w : FVec Ideal Wts .f32) : FVec Ideal Outs .f32 :=
  fun i => ∑ k : Fin 4096, a (ix3 (i 0) (i 1) k) * w (ix2 (i 2) k)

/-- The same product over flattened rows: entry (r, o) is the inner product of row `r` of `A` with row `o` of `B`,
    whatever float formats the two operands are kept in. -/
def flatDot {φ₁ φ₂ : FTy} (A : FVec Ideal ActRows φ₁) (B : FVec Ideal Wts φ₂) : FVec Ideal OutRows .f32 :=
  fun j => ∑ k : Fin 4096, A (ix2 (j 0) k) * B (ix2 (j 1) k)

/-- Row `b · 2048 + s` is one of the 8192 flattened rows. -/
theorem flatRow_lt (b : Fin 4) (s : Fin 2048) : b.val * 2048 + s.val < 8192 := by
  have := b.isLt; have := s.isLt; omega

/-- The flattened activations at row `b · 2048 + s` are the activations at (b, s): same row-major position. -/
theorem flatten_apply (a : FVec Ideal Acts .f32) (h : Acts.ShapeCasts ActRows) (b : Fin 4) (s : Fin 2048) (k : Fin 4096) :
    shapeCast ActRows a h (ix2 ⟨b.val * 2048 + s.val, flatRow_lt b s⟩ k) = a (ix3 b s k) :=
  shapeCast_apply a h _ (ix3 b s k) (by rw [Shape.rowMajor_val_two, Shape.rowMajor_val_three]; rfl)

/-- The flattened result folded back: entry (b, s, o) is the flattened entry at row `b · 2048 + s`. -/
theorem fold_apply (B : FVec Ideal OutRows .f32) (h : OutRows.ShapeCasts Outs) (b : Fin 4) (s : Fin 2048) (o : Fin 16384) :
    shapeCast Outs B h (ix3 b s o) = B (ix2 ⟨b.val * 2048 + s.val, flatRow_lt b s⟩ o) :=
  shapeCast_apply B h (ix3 b s o) _ (by rw [Shape.rowMajor_val_two, Shape.rowMajor_val_three]; rfl)

/-- THE TWO ARRANGEMENTS AGREE: flatten the activations' rows, narrow both operands' format, multiply row by row,
    fold the rows back — entry by entry that is `rowsDot`. -/
theorem fold_flatDot (a : FVec Ideal Acts .f32) (w : FVec Ideal Wts .f32) (h1 : Acts.ShapeCasts ActRows)
    (h2 : OutRows.ShapeCasts Outs) (hlt : FTy.bits .bf16 < FTy.bits .f32) :
    shapeCast Outs (flatDot (truncf .bf16 (shapeCast ActRows a h1) hlt) (truncf .bf16 w hlt)) h2 = rowsDot a w := by
  funext i
  obtain ⟨b, s, o, rfl⟩ : ∃ (b : Fin 4) (s : Fin 2048) (o : Fin 16384), i = ix3 b s o := ⟨i 0, i 1, i 2, eq_ix3 i⟩
  rw [fold_apply]
  unfold flatDot rowsDot
  refine Finset.sum_congr rfl fun k _ => ?_
  show shapeCast ActRows a h1 (ix2 ⟨b.val * 2048 + s.val, flatRow_lt b s⟩ k) * w (ix2 o k) = a (ix3 b s k) * w (ix2 o k)
  rw [flatten_apply]

end Cert.SignTernary

end
-- ==== Proof.RefValue.lean ====
/-
  The reference's result, at the exact values, is `rowsDot` of the signed activations and the ternary weights.

  The reference ends in one contraction of the feature axis of the signed activations [4, 2048, 4096] against the
  feature axis of the ternary weights [16384, 4096]. Read at an index (b, s, o) that contraction is
  `∑_k sign(x)[b, s, k] · W[o, k]`, the sum over the 4096 features in their natural order: `rowsDot` by definition,
  once the two index functions the contraction is read through are seen to be the coordinate triples (b, s, k) and
  pairs (o, k).
-/
import proofs.«157633_j90134183674153_1_alg».proof.Proof.Gen.ReferenceIdeal.Read
import proofs.«157633_j90134183674153_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SignTernary
open scoped BigOperators

/-- The left operand is read at (b, s, k). -/
theorem lidx_eq (i : S4x2048x16384.Idx) (k : Fin 4096) : lidx_main_v13 i k = ix3 (i 0) (i 1) k :=
  funext fun a => by match a with | ⟨0, _⟩ => rfl | ⟨1, _⟩ => rfl | ⟨2, _⟩ => rfl

/-- The right operand is read at (o, k). -/
theorem ridx_eq (i : S4x2048x16384.Idx) (k : Fin 4096) : ridx_main_v13 i k = ix2 (i 2) k :=
  funext fun a => by match a with | ⟨0, _⟩ => rfl | ⟨1, _⟩ => rfl

/-- The reference's weights are the ternary weights. -/
theorem weights_eq (w : FVec Ideal S16384x4096 .f32) :
    val_main_v12 (F := Ideal) w = ternary reducesTo_S16384x4096_S_d0_1 h_S_ bcast_S_S16384x4096 w := rfl

/-- THE REFERENCE'S RESULT is `rowsDot` of the signed activations and the ternary weights. -/
theorem result_eq (x : FVec Ideal S4x2048x4096 .f32) (w : FVec Ideal S16384x4096 .f32) :
    val_main_v13 (F := Ideal) x w
      = rowsDot (Host.sign x) (ternary reducesTo_S16384x4096_S_d0_1 h_S_ bcast_S_S16384x4096 w) := by
  funext i
  rw [val_main_v13_apply]
  unfold rowsDot
  refine Finset.sum_congr rfl fun k _ => ?_
  rw [lidx_eq, ridx_eq, weights_eq]
  rfl

end Cert.ReferenceIdeal.RefValue

end
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.KernelBlocks.lean ====
/-
  What the kernel's one region leaves in its result array, at the exact values.

  The region runs on a 16 × 16 grid. At point (i, j) it is handed rows 512·i … 512·i + 511 of the flattened
  activations `A` [8192, 4096] (all 4096 features), rows 1024·j … 1024·j + 1023 of the weights `B` [16384, 4096], and
  writes back the 512 × 1024 block of the result at block position (i, j). Its body is one product of the two blocks
  into a zero accumulator, contracting the feature axis of both: entry (p, q) of the block is
  `∑_k A[512·i + p, k] · B[1024·j + q, k]`. That is entry (512·i + p, 1024·j + q) of `flatDot A B` — each block is
  the restriction of ONE whole-array function — and the 256 blocks tile the [8192, 16384] result (row `r` lies in block
  row `r / 512`, column `o` in block column `o / 1024`), so after the region the result array IS `flatDot A B`.
-/
import proofs.«157633_j90134183674153_1_alg».proof.Proof.Gen.KernelIdeal.Frame
import proofs.«157633_j90134183674153_1_alg».proof.Proof.Spec
import proofs.«157633_j90134183674153_1_alg».proof.Proof.LibRowRowMatmul
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx Cert.SignTernary
open Idealize.ShloMosaic.Pipeline (Dat)
open scoped BigOperators

variable (m : (ℓ : Loc nD τ sig) → Buf (Elt Ideal) ℓ)

/-- The body's loads and its store all start at the origin of their buffers. -/
theorem origin : (![0, 0] : Fin 2 → Nat) = fun _ => 0 := funext fun a => by fin_cases a <;> rfl

/-- The flattened activations as the region finds them. -/
abbrev actRows (c : Dev nD) : FVec Ideal S8192x4096 .bf16 := V m c main_v14
/-- The weights as the region finds them. -/
abbrev wtRows (c : Dev nD) : FVec Ideal S16384x4096 .bf16 := V m c main_v15

/-- ONE BLOCK'S ENTRY: the body's product of a 512 × 4096 block and a 1024 × 4096 block has at (p, q) the inner product
    of row `p` of the first with row `q` of the second. (The two shape casts in the body are between equal shapes.) -/
theorem block_entry (x0 : Vec Ideal S512x4096 .bf16) (x1 : Vec Ideal S1024x4096 .bf16) (p : Fin 512) (q : Fin 1024) :
    k0_pay1 x0 x1 (ix2 p q) = ∑ k : Fin 4096, x0 (ix2 p k) * x1 (ix2 q k) := by
  unfold k0_pay1
  simp only [shapeCast_self]
  exact Cert.RowRowMatmul.matmul_zero_apply dot_S512x4096_S1024x4096_S512x1024_1_1_0_0_n_n rfl rfl rfl rfl rfl rfl none x0 x1 p q

/-- The printed index maps, decided over the 256 grid points: the activations' block row is the result's block row, the
    weights' block row is the result's block column, and both inputs take all features (block column 0). -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block position of the result is some grid point's. -/
theorem idx_onto : ∀ (q0 : Fin 16) (q1 : Fin 16), ∃ t : Fin cfg0.N, win0_2.index t = ![q0.val, q1.val] :=
  (by decide +kernel : ∀ (q0 : Fin 16) (q1 : Fin 16), ∃ t : Fin grid0.N, win0_2.index t = ![q0.val, q1.val])

/-- WHAT POINT `t` WRITES BACK is block `t` of `flatDot` of the two arrays as the region finds them. -/
theorem flushed_eq (c : Dev nD) (t : Fin cfg0.N) :
    (dats m 0 c).flushed 2 t = ((cfg0.win 2).blk t).view.read (Elt Ideal) (flatDot (actRows m c) (wtRows m c)) := by
  show (cfg0.win 2).cut (grid0.coords t) ((dats m 0 c).after 2 t) = _
  rw [after0_2]
  unfold out0_2
  rw [View.canon_unit_zero origin]
  simp only [View.ld_unit_zero (S := S512x4096) origin, View.ld_unit_zero (S := S1024x4096) origin]
  obtain ⟨e0, e1, e2, e3⟩ := idx_facts t
  funext j
  obtain ⟨p, q, rfl⟩ : ∃ (p : Fin 512) (q : Fin 1024), j = ix2 p q := ⟨j 0, j 1, eq_ix2 j⟩
  show k0_pay1 (iblk m c 0 t) (iblk m c 1 t) (ix2 p q)
      = flatDot (actRows m c) (wtRows m c) (((cfg0.win 2).blk t).view.emb (ix2 p q))
  refine (block_entry (iblk m c 0 t) (iblk m c 1 t) p q).trans ?_
  unfold flatDot
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 4096 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 4096 + 1 * k.val = k.val; omega
  show actRows m c (((cfg0.win 0).blk t).view.emb (ix2 p k)) * wtRows m c (((cfg0.win 1).blk t).view.emb (ix2 q k))
      = actRows m c (ix2 ((((cfg0.win 2).blk t).view.emb (ix2 p q)) 0) k) * wtRows m c (ix2 ((((cfg0.win 2).blk t).view.emb (ix2 p q)) 1) k)
  rw [h0, h1]
  rfl

/-- An index of the result is in point `t`'s block iff each coordinate is in the block's range on its axis. -/
theorem mem_blk (t : Fin cfg0.N) (i : S8192x16384.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v16).slice (win0_2.rect t)).set ↔ _
  rw [View.set_slice_whole, Rect.mem_set_unit]
  exact Iff.rfl

/-- THE BLOCKS TILE THE RESULT: row `r` is in block row `r / 512`, column `o` in block column `o / 1024`. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE RESULT ARRAY after the region is `flatDot` of the two arrays as the region finds them. -/
theorem final (c : Dev nD) : (dats m 0 c).arrAt 2 cfg0.N = flatDot (actRows m c) (wtRows m c) :=
  (dats m 0 c).arrAt_eq_of_cover 2 _ (fun t _ => flushed_eq m c t) cover

end Cert.KernelIdeal.Blocks

end
-- ==== Proof.KernelRun.lean ====
/-
  The kernel program's run, read: its result is `rowsDot` of the signed activations and the ternary weights.

  Before the region the program signs the activations, lays their (batch, position) rows end to end as 8192 rows and
  narrows them to the short float format; it forms the ternary weights and narrows those too. The region then leaves
  `flatDot` of these two arrays in its [8192, 16384] result array. After the region one reshape folds the 8192 rows
  back into (batch, position). Narrowing is the identity on exact values and row `b · 2048 + s` of the flattened arrays is
  row (b, s), so the folded result is `rowsDot` entry by entry (`fold_flatDot`).
-/
import proofs.«157633_j90134183674153_1_alg».proof.Proof.KernelBlocks
import Idealize.ShloMosaic.Lib.StableHlo.Run

set_option maxRecDepth 16384

noncomputable section

namespace Cert.KernelIdeal.KernelRun

open Cert.KernelIdeal Cert.KernelIdeal.Gen Cert.KernelIdeal.Blocks
open Idealize.ShloMosaic Idealize.ShloMosaic.TcCoe Idealize.SL.Sem Idealize.ShloMosaic.StableHlo Cert.SignTernary
open Idealize.ShloMosaic.Pipeline (Dat)

variable (m : (ℓ : Loc nD τ sig) → Buf (Elt Ideal) ℓ) (ρ : Dev nD → PrngReg)

/-- The region finds the signed activations, flattened to 8192 rows and narrowed. -/
theorem actRows_eq (c : Dev nD) :
    actRows m c = truncf .bf16 (shapeCast S8192x4096 (Host.sign (m ((c : Thread nD τ).loc main_arg0))) shapeCasts_S4x2048x4096_S8192x4096) bitsLt_bf16_f32 := by
  show V m c main_v14 = _
  dsimp only [Gen.V, Gen.V0]
  simp only [Gen.hostOps0, Gen.hostOps0_1, Gen.hostOps0_2, List.flatten_cons, List.flatten_nil, List.append_nil, List.cons_append,
    List.nil_append]
  after_results <;> rfl

/-- The region finds the ternary weights, narrowed. -/
theorem wtRows_eq (c : Dev nD) :
    wtRows m c = truncf .bf16 (ternary reducesTo_S16384x4096_S_d0_1 h_S_ bcast_S_S16384x4096 (m ((c : Thread nD τ).loc main_arg1))) bitsLt_bf16_f32 := by
  show V m c main_v15 = _
  dsimp only [Gen.V, Gen.V0]
  simp only [Gen.hostOps0, Gen.hostOps0_1, Gen.hostOps0_2, List.flatten_cons, List.flatten_nil, List.append_nil, List.cons_append,
    List.nil_append]
  after_results <;> rfl

/-- After the region, the one reshape folds the region's result array into (batch, position, output feature). -/
theorem folded_eq (c : Dev nD) :
    Pipeline.afterTail₀ cfgs (dats m) 0 (V0 m) [hostOps1] c main_v17
      = shapeCast S4x2048x16384 ((dats m 0 c).arrAt 2 cfg0.N) shapeCasts_S8192x16384_S4x2048x16384 := by
  unfold Pipeline.afterTail₀
  show StableHlo.after hostOps1 _ (Proc.devRef .tc main_v17) = _
  after_results
  exact congrArg (fun X => shapeCast S4x2048x16384 X shapeCasts_S8192x16384_S4x2048x16384)
    (Pipeline.withArrays_arr spec0 launch0.win.arr_inj c _ _ 2)

/-- THE PROGRAM'S RESULT is `rowsDot` of the signed activations and the ternary weights. -/
theorem result_eq (c : Dev nD) :
    Pipeline.afterTail₀ cfgs (dats m) 0 (V0 m) [hostOps1] c main_v17
      = rowsDot (Host.sign (m ((c : Thread nD τ).loc main_arg0)))
          (ternary reducesTo_S16384x4096_S_d0_1 h_S_ bcast_S_S16384x4096 (m ((c : Thread nD τ).loc main_arg1))) := by
  rw [folded_eq, final, actRows_eq, wtRows_eq]
  exact fold_flatDot _ _ _ _ _

/-- The frame run re-posted: the result at `rowsDot`, the arguments unchanged. -/
theorem run : θ_run defs (onTc (τ := τ) (main (F := Ideal))) ⟨m, fun _ => 0, ρ⟩ fun r => ∀ c : Dev nD,
      r.2.mem ((c.tc : Thread nD τ).loc main_v17)
        = rowsDot (Host.sign (m ((c.tc : Thread nD τ).loc main_arg0)))
            (ternary reducesTo_S16384x4096_S_d0_1 h_S_ bcast_S_S16384x4096 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v17 (Pipeline.mem_restRefs_of main_v17 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelRun

end
-- ==== Proof.lean ====
/-
  A sign-activation × ternary-weight linear layer, tiled, against the same layer as one contraction.

  Both programs binarize the activations `x` [4, 2048, 4096] to their signs and quantize the weights `w` [16384, 4096]
  to ternary values by their mean absolute value (the same expression, constant for constant, in both). The reference
  then contracts the feature axis in one step: entry (b, s, o) is `∑_k sign(x)[b, s, k] · W[o, k]`. The kernel program
  flattens (batch, position) into 8192 rows, narrows both operands to a short float format (the identity on exact
  values), computes the [8192, 16384] product in 256 blocks of 512 × 1024 on a grid — each block one product of a
  512 × 4096 row block with a 1024 × 4096 row block into a zero accumulator — and folds the rows back. Each entry of
  each block is that same sum over the 4096 features, the blocks tile the result, and flattened row `b · 2048 + s` is row
  (b, s): the two results are one function of the arguments, `rowsDot` of the signed activations and the ternary
  weights. No algebraic law of the extended reals is needed, so the finiteness of the inputs is never used.

  The three runs: both kernel programs' runs are the ones proved with their generated frames; the reference's is its
  list of host operations run in order. The idealized kernel program is the printed one read at exact values (no
  rewrite was applied), so that conjunct is trivial.
-/
import proofs.«157633_j90134183674153_1_alg».proof.Defs
import proofs.«157633_j90134183674153_1_alg».proof.Proof.Gen.Kernel
import proofs.«157633_j90134183674153_1_alg».proof.Proof.Gen.Kernel.Skeleton
import proofs.«157633_j90134183674153_1_alg».proof.Proof.Gen.Kernel.Launch
import proofs.«157633_j90134183674153_1_alg».proof.Proof.Gen.Kernel.Points
import proofs.«157633_j90134183674153_1_alg».proof.Proof.Gen.Kernel.Frame
import proofs.«157633_j90134183674153_1_alg».proof.Proof.Gen.KernelIdeal
import proofs.«157633_j90134183674153_1_alg».proof.Proof.Gen.KernelIdeal.Skeleton
import proofs.«157633_j90134183674153_1_alg».proof.Proof.Gen.KernelIdeal.Launch
import proofs.«157633_j90134183674153_1_alg».proof.Proof.Gen.KernelIdeal.Points
import proofs.«157633_j90134183674153_1_alg».proof.Proof.Gen.KernelIdeal.Frame
import proofs.«157633_j90134183674153_1_alg».proof.Proof.Gen.ReferenceIdeal
import proofs.«157633_j90134183674153_1_alg».proof.Proof.Gen.ReferenceIdeal.Run
import proofs.«157633_j90134183674153_1_alg».proof.Proof.Gen.ReferenceIdeal.Read
import proofs.«157633_j90134183674153_1_alg».proof.Proof.Gen.Pre_finite_inputs
import proofs.«157633_j90134183674153_1_alg».proof.Proof.RefValue
import proofs.«157633_j90134183674153_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program at exact values. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and `w`, both programs end with `rowsDot (sign x) (ternary w)` in their result. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
